-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x64 : Shape := ⟨3, ![16, 64, 64]⟩
abbrev S1024x32768 : Shape := ⟨2, ![1024, 32768]⟩
abbrev S_ : Shape := ⟨0, ![]⟩

class Facts : Prop where
  bcast_S_S16x64x64 : S_.BroadcastsInDim S16x64x64 (![] : Fin 0 → Fin S16x64x64.rank)
  reducesTo_S16x64x64_S_d0_1_2 : S16x64x64.ReducesTo [0, 1, 2] S_
  h_S_ : 0 < S_.numel
  bcast_S_S1024x32768 : S_.BroadcastsInDim S1024x32768 (![] : Fin 0 → Fin S1024x32768.rank)
  reducesTo_S1024x32768_S_d0_1 : S1024x32768.ReducesTo [0, 1] S_

variable [Facts]

def fn {F : FTy → Type} [FloatOps F] (main_arg0 : FVec F S16x64x64 .f32) (main_arg1 : FVec F S1024x32768 .f32) : IVec S_ 1 :=
  let main_v0 : FVec F S16x64x64 .f32 := Host.absf main_arg0
  let main_cst : FVec F S_ .f32 := constant S_ .f32 0x7F800000#32
  let main_v1 : FVec F S16x64x64 .f32 := broadcastInDim S16x64x64 ![] bcast_S_S16x64x64 main_cst
  let main_v2 : IVec S16x64x64 1 := cmpf .olt main_v0 main_v1
  let main_c : IVec S_ 1 := constantI S_ 1 1#1
  let main_v3 : IVec S_ 1 := (fun x v => Host.reduce IntOp.andi x v reducesTo_S16x64x64_S_d0_1_2 h_S_) main_v2 main_c
  let main_v4 : FVec F S1024x32768 .f32 := Host.absf main_arg1
  let main_cst_0 : FVec F S_ .f32 := constant S_ .f32 0x7F800000#32
  let main_v5 : FVec F S1024x32768 .f32 := broadcastInDim S1024x32768 ![] bcast_S_S1024x32768 main_cst_0
  let main_v6 : IVec S1024x32768 1 := cmpf .olt main_v4 main_v5
  let main_c_1 : IVec S_ 1 := constantI S_ 1 1#1
  let main_v7 : IVec S_ 1 := (fun x v => Host.reduce IntOp.andi x v reducesTo_S1024x32768_S_d0_1 h_S_) main_v6 main_c_1
  let main_v8 : IVec S_ 1 := andi main_v3 main_v7
  main_v8
-- ==== Kernel.lean ====
abbrev S16x64x64 : Shape := ⟨3, ![16, 64, 64]⟩
abbrev S1024x32768 : Shape := ⟨2, ![1024, 32768]⟩
abbrev S1x64x64 : Shape := ⟨3, ![1, 64, 64]⟩
abbrev S64x16384 : Shape := ⟨2, ![64, 16384]⟩
abbrev S64x64 : Shape := ⟨2, ![64, 64]⟩

abbrev nBuf : Space → Nat
  | .hbm => 3
  | .vmem => 6
  | .smem => 0
  | _ => 0

abbrev bufTy : (tb : Table) → Fin (tcTables nBuf tb) → BufTy
  | .hbm, ⟨0, _⟩ => ⟨S16x64x64, .f32⟩
  | .hbm, ⟨1, _⟩ => ⟨S1024x32768, .f32⟩
  | .hbm, ⟨2, _⟩ => ⟨S1024x32768, .f32⟩
  | .local _ .vmem, ⟨0, _⟩ => ⟨S1x64x64, .f32⟩
  | .local _ .vmem, ⟨1, _⟩ => ⟨S1x64x64, .f32⟩
  | .local _ .vmem, ⟨2, _⟩ => ⟨S64x16384, .f32⟩
  | .local _ .vmem, ⟨3, _⟩ => ⟨S64x16384, .f32⟩
  | .local _ .vmem, ⟨4, _⟩ => ⟨S64x16384, .f32⟩
  | .local _ .vmem, ⟨5, _⟩ => ⟨S64x16384, .f32⟩
  | _, _ => ⟨S16x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  bitsLt_bf16_f32 : FTy.bits .bf16 < FTy.bits .f32
  inb_S64x16384_S64x16384_0_0 : ∀ a, (![0, 0] : Fin 2 → Nat) a + S64x16384.size a ≤ S64x16384.size a
  h_S64x16384 : 0 < S64x16384.numel
  dot_S64x64_S64x16384_S64x16384_1_0_0_1_n_n_wf : DotDims.WF S64x64 S64x16384 S64x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64.size a ≤ S16x64x64.size a
  hwx0_0 : ∀ i : grid0.Coords, EltTy.bits .f32 = 32 ∨ (Rect.block (s := S16x64x64) S1x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x16384.size a ≤ S1024x32768.size a
  hwx0_1 : ∀ i : grid0.Coords, EltTy.bits .f32 = 32 ∨ (Rect.block (s := S1024x32768) S64x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x16384.size a ≤ S1024x32768.size a
  hwx0_2 : ∀ i : grid0.Coords, EltTy.bits .f32 = 32 ∨ (Rect.block (s := S1024x32768) S64x16384.size (cc0_transform_2 i) (hinb0_2 i)).WholeWords (EltTy.packing .f32)

variable [Facts₀]

def dot_S64x64_S64x16384_S64x16384_1_0_0_1_n_n : DotDims S64x64 S64x16384 S64x16384 where
  lhsContracting := [1]
  rhsContracting := [0]
  lhsNonContracting := [0]
  rhsNonContracting := [1]
  lhsBatch := []
  rhsBatch := []
  wf := dot_S64x64_S64x16384_S64x16384_1_0_0_1_n_n_wf

abbrev win0_0 : Pipeline.Window sig grid0 :=
  Pipeline.Window.ofSpec (Memref.whole main_arg0) S1x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x16384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x64x64 : Shape := ⟨3, ![16, 64, 64]⟩
abbrev S1024x32768 : Shape := ⟨2, ![1024, 32768]⟩
abbrev S16x64x32768 : Shape := ⟨3, ![16, 64, 32768]⟩

abbrev nBuf : Space → Nat
  | .hbm => 5
  | .vmem => 0
  | .smem => 0
  | _ => 0

abbrev bufTy : (tb : Table) → Fin (tcTables nBuf tb) → BufTy
  | .hbm, ⟨0, _⟩ => ⟨S16x64x64, .f32⟩
  | .hbm, ⟨1, _⟩ => ⟨S1024x32768, .f32⟩
  | .hbm, ⟨2, _⟩ => ⟨S16x64x32768, .f32⟩
  | .hbm, ⟨3, _⟩ => ⟨S16x64x32768, .f32⟩
  | .hbm, ⟨4, _⟩ => ⟨S1024x32768, .f32⟩
  | _, _ => ⟨S16x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S1024x32768_S16x64x32768 : S1024x32768.ShapeCasts S16x64x32768
  shapeCasts_S16x64x32768_S1024x32768 : S16x64x32768.ShapeCasts S1024x32768
  dot_S16x64x64_S16x64x32768_S16x64x32768_2_1_1_2_0_0_wf : DotDims.WF S16x64x64 S16x64x32768 S16x64x32768 [2] [1] [1] [2] [0] [0]

variable [Facts₀]

def dot_S16x64x64_S16x64x32768_S16x64x32768_2_1_1_2_0_0 : DotDims S16x64x64 S16x64x32768 S16x64x32768 where
  lhsContracting := [2]
  rhsContracting := [1]
  lhsNonContracting := [1]
  rhsNonContracting := [2]
  lhsBatch := [0]
  rhsBatch := [0]
  wf := dot_S16x64x64_S16x64x32768_S16x64x32768_2_1_1_2_0_0_wf

class Facts : Prop extends Facts₀ where

variable [Facts]
-- ==== Proof.Spec.lean ====
/-
  The block-diagonal product, index by index.

  `W` stacks sixteen 64 × 64 blocks and `x` has 1024 = 16 · 64 rows. Row `r` of the result lies in block
  `h = r / 64`, at row `p = r % 64` of that block, and only the 64 rows `64·h, …, 64·h + 63` of `x` (the rows of the
  same block) enter it:
      out[r, b] = ∑_{k < 64} W[h, p, k] · x[64·h + k, b].
  A finite sum of products on the extended reals. Both programs compute this very sum, over the same index set
  `k < 64` and with the same two factors in the same order in every term, so nothing beyond re-indexing a finite sum joins
  them: no distributivity, no cancellation, and therefore no use of the inputs' finiteness.
-/
import Idealize.ShloMosaic.PureOps.Ideal
import Idealize.ShloMosaic.Lib.ValueIdx

noncomputable section

open scoped BigOperators

namespace Cert.BlockDiag

open Idealize.ShloMosaic Idealize.ShloMosaic.ValueIdx

/-- The stacked blocks' shape, `[16, 64, 64]`. -/
abbrev Sw : Shape := ⟨3, ![16, 64, 64]⟩
/-- The shape of the right factor and of the result, `[1024, 32768]`. -/
abbrev Sx : Shape := ⟨2, ![1024, 32768]⟩

/-- The block a row belongs to. -/
def blockOf (r : Fin 1024) : Fin 16 := ⟨r.val / 64, by have := r.isLt; omega⟩
/-- The row's position inside its block. -/
def rowIn (r : Fin 1024) : Fin 64 := ⟨r.val % 64, Nat.mod_lt _ (by decide)⟩
/-- The `k`-th row of `x` among those of row `r`'s block. -/
def srcRow (r : Fin 1024) (k : Fin 64) : Fin 1024 := ⟨r.val / 64 * 64 + k.val, by have := r.isLt; have := k.isLt; omega⟩

/-- One entry of the block-diagonal product: row `p` of block `h` of `W` against column `b` of the block's rows of `x`. -/
def entry (W : Sw.Idx → EReal) (x : Sx.Idx → EReal) (r : Fin 1024) (b : Fin 32768) : EReal :=
  ∑ k : Fin 64, W (ix3 (blockOf r) (rowIn r) k) * x (ix2 (srcRow r k) b)

/-- The block-diagonal product as one function of the two arrays. -/
def blockDiagMul (W : Sw.Idx → EReal) (x : Sx.Idx → EReal) : Sx.Idx → EReal :=
  fun i => entry W x (i 0) (i 1)

theorem blockDiagMul_ix2 (W : Sw.Idx → EReal) (x : Sx.Idx → EReal) (r : Fin 1024) (b : Fin 32768) :
    blockDiagMul W x (ix2 r b) = entry W x r b := rfl

end Cert.BlockDiag

end
-- ==== Proof.RefSide.lean ====
/-
  The reference's result is the block-diagonal product.

  The reference views `x : [1024, 32768]` as `[16, 64, 32768]` (row `r` becomes block `r / 64`, row `r % 64`), multiplies
  block by block — `out3[h, p, b] = ∑_k W[h, p, k] · x3[h, k, b]` — and views the product as `[1024, 32768]` again. Both
  views are row-major re-readings, so reading the result at `(r, b)` lands on `(r / 64, r % 64, b)` of the batched
  product, and `x3[h, k, b]` on `x[64·h + k, b]`: term by term the sum defining `Cert.BlockDiag.entry`.
-/
import proofs.«144329_j63496796504583_1_alg».proof.Proof.Gen.ReferenceIdeal.Read
import proofs.«144329_j63496796504583_1_alg».proof.Proof.Spec

noncomputable section

open scoped BigOperators

namespace Cert.ReferenceIdeal.BlockDiag

open Cert.ReferenceIdeal Cert.ReferenceIdeal.Read Cert.BlockDiag Idealize.ShloMosaic Idealize.ShloMosaic.ValueIdx

/-- Entry `(r, b)` of the re-viewed product is entry `(r / 64, r % 64, ·)` of the batched one; its `k`-th left factor is
    `W[r / 64, r % 64, k]`. -/
theorem left_index (r : Fin 1024) (b : Fin 32768) (k : Fin 64) :
    lidx_main_v1 (idx_main_v2 (ix2 r b)) k = ix3 (blockOf r) (rowIn r) k := by
  have hr : r.val < 1024 := r.isLt
  have hb : b.val < 32768 := b.isLt
  funext a; apply Fin.ext
  match a with
  | ⟨0, _⟩ => show (r.val * 32768 + b.val) / 2097152 = r.val / 64; omega
  | ⟨1, _⟩ => show (r.val * 32768 + b.val) / 32768 % 64 = r.val % 64; omega
  | ⟨2, _⟩ => rfl

/-- Its `k`-th right factor is `x3[r / 64, k, b]`, which the first re-viewing reads at `x[64 · (r / 64) + k, b]`. -/
theorem right_index (r : Fin 1024) (b : Fin 32768) (k : Fin 64) :
    idx_main_v0 (ridx_main_v1 (idx_main_v2 (ix2 r b)) k) = ix2 (srcRow r k) b := by
  have hr : r.val < 1024 := r.isLt
  have hb : b.val < 32768 := b.isLt
  have hk : k.val < 64 := k.isLt
  funext a; apply Fin.ext
  match a with
  | ⟨0, _⟩ =>
    show ((((r.val * 32768 + b.val) / 2097152) * 64 + k.val) * 32768 + (r.val * 32768 + b.val) % 32768) / 32768 = r.val / 64 * 64 + k.val
    omega
  | ⟨1, _⟩ =>
    show ((((r.val * 32768 + b.val) / 2097152) * 64 + k.val) * 32768 + (r.val * 32768 + b.val) % 32768) % 32768 = b.val
    omega

/-- The reference's last stage, at the ideal values, is the block-diagonal product of its two arguments. -/
theorem reference_eq (W : (⟨S16x64x64, .f32⟩ : BufTy).Contents (Elt Ideal)) (x : (⟨S1024x32768, .f32⟩ : BufTy).Contents (Elt Ideal)) :
    val_main_v2 (F := Ideal) W x = blockDiagMul W x := by
  funext i
  obtain ⟨r, b, rfl⟩ : ∃ (r : Fin 1024) (b : Fin 32768), i = ix2 r b := ⟨i 0, i 1, eq_ix2 i⟩
  rw [val_main_v2_apply, val_main_v1_apply, blockDiagMul_ix2]
  unfold entry
  refine Finset.sum_congr rfl fun k _ => ?_
  rw [val_main_v0_apply, left_index, right_index]

end Cert.ReferenceIdeal.BlockDiag

end
-- ==== Proof.KernelBlock.lean ====
/-
  What the kernel's body stores, entry by entry.

  At a grid point the body holds one 64 × 64 block of `W` (as a `[1, 64, 64]` vector `w`) and one 64 × 16384 tile `x` of
  the right factor, drops `w`'s unit axis, and multiplies on the matrix unit into a zero accumulator. The two format
  changes in between are the identity on extended reals, and the zero accumulator adds nothing, so entry `(p, q)` of
  what it stores is
      ∑_{k < 64} w[0, p, k] · x[k, q].
-/
import proofs.«144329_j63496796504583_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.BlockDiag

open Cert.KernelIdeal Cert.KernelIdeal.Gen Idealize.ShloMosaic Idealize.ShloMosaic.ValueIdx

/-! ## The matrix product's operand indices, axis by axis

The left operand is read at (output row, contraction index), the right one at (contraction index, output column). -/

theorem lhs_axis0 (i : S64x16384.Idx) (q : dot_S64x64_S64x16384_S64x16384_1_0_0_1_n_n.contr.Idx) :
    (dot_S64x64_S64x16384_S64x16384_1_0_0_1_n_n.lhsIdx i q 0).val = (i 0).val := by
  unfold DotDims.lhsIdx
  rw [dif_neg (show ¬(0 : Fin S64x64.rank) ∈ dot_S64x64_S64x16384_S64x16384_1_0_0_1_n_n.lhsBatch by decide), dif_pos (show (0 : Fin S64x64.rank) ∈ dot_S64x64_S64x16384_S64x16384_1_0_0_1_n_n.lhsNonContracting by decide)]
  rfl
theorem lhs_axis1 (i : S64x16384.Idx) (q : dot_S64x64_S64x16384_S64x16384_1_0_0_1_n_n.contr.Idx) :
    (dot_S64x64_S64x16384_S64x16384_1_0_0_1_n_n.lhsIdx i q 1).val = (q ⟨0, by decide⟩).val :=
  dot_S64x64_S64x16384_S64x16384_1_0_0_1_n_n.lhsIdx_val_of_single rfl i q
theorem rhs_axis0 (i : S64x16384.Idx) (q : dot_S64x64_S64x16384_S64x16384_1_0_0_1_n_n.contr.Idx) :
    (dot_S64x64_S64x16384_S64x16384_1_0_0_1_n_n.rhsIdx i q 0).val = (q ⟨0, by decide⟩).val :=
  dot_S64x64_S64x16384_S64x16384_1_0_0_1_n_n.rhsIdx_val_of_single rfl i q
theorem rhs_axis1 (i : S64x16384.Idx) (q : dot_S64x64_S64x16384_S64x16384_1_0_0_1_n_n.contr.Idx) :
    (dot_S64x64_S64x16384_S64x16384_1_0_0_1_n_n.rhsIdx i q 1).val = (i 1).val := by
  unfold DotDims.rhsIdx
  rw [dif_neg (show ¬(1 : Fin S64x16384.rank) ∈ dot_S64x64_S64x16384_S64x16384_1_0_0_1_n_n.rhsBatch by decide), dif_pos (show (1 : Fin S64x16384.rank) ∈ dot_S64x64_S64x16384_S64x16384_1_0_0_1_n_n.rhsNonContracting by decide)]
  rfl

/-! ## The stored value at an entry -/

/-- Dropping the unit axis of the `[1, 64, 64]` block reads entry `(p, k)` at `(0, p, k)`: the same row-major offset. -/
theorem dropUnit_apply (w : FVec Ideal S1x64x64 .f32) (p k : Fin 64) :
    shapeCast S64x64 w shapeCasts_S1x64x64_S64x64 (ix2 p k) = w (ix3 0 p k) :=
  shapeCast_apply w shapeCasts_S1x64x64_S64x64 (ix2 p k) (ix3 0 p k)
    (by rewrite [Shape.rowMajor_val_three, Shape.rowMajor_val_two]
        show ((0 : Fin 1).val * 64 + p.val) * 64 + k.val = p.val * 64 + k.val
        simp)

/-- Entry `(p, q)` of the body's stored value: row `p` of the block of `W` against column `q` of the tile. -/
theorem stored_apply (w : FVec Ideal S1x64x64 .f32) (x : FVec Ideal S64x16384 .f32) (p : Fin 64) (q : Fin 16384) :
    k0_pay1 (F := Ideal) w x (ix2 p q) = ∑ k : Fin 64, w (ix3 0 p k) * x (ix2 k q) := by
  unfold k0_pay1
  refine (Ideal.matmul_constant_zero_apply dot_S64x64_S64x16384_S64x16384_1_0_0_1_n_n none _ _ (ix2 p q)).trans ?_
  rw [← Equiv.sum_comp (contrEquiv1 dot_S64x64_S64x16384_S64x16384_1_0_0_1_n_n 64 rfl rfl).symm]
  refine Finset.sum_congr rfl fun k _ => ?_
  have hk := contrEquiv1_symm_val dot_S64x64_S64x16384_S64x16384_1_0_0_1_n_n 64 rfl rfl k
  have el : dot_S64x64_S64x16384_S64x16384_1_0_0_1_n_n.lhsIdx (ix2 p q) ((contrEquiv1 dot_S64x64_S64x16384_S64x16384_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S64x64_S64x16384_S64x16384_1_0_0_1_n_n.rhsIdx (ix2 p q) ((contrEquiv1 dot_S64x64_S64x16384_S64x16384_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]
  show shapeCast S64x64 w shapeCasts_S1x64x64_S64x64 (ix2 p k) * x (ix2 k q) = _
  rw [dropUnit_apply]

end Cert.KernelIdeal.BlockDiag

end
-- ==== Proof.KernelSide.lean ====
/-
  The kernel's result array is the block-diagonal product.

  The grid is 16 × 2: point `(h, bb)` is handed block `h` of `W`, the tile of `x` with rows `64·h … 64·h + 63` and columns
  `16384·bb … 16384·bb + 16383`, and writes the tile of the result with the same rows and columns. Entry `(p, q)` of what it
  writes is `∑_k W[h, p, k] · x[64·h + k, 16384·bb + q]`, which is the block-diagonal product at row `r = 64·h + p`
  (so `r / 64 = h`, `r % 64 = p`) and column `16384·bb + q`. The 32 tiles cover the `1024 × 32768` result — row `r` and
  column `b` lie in the tile of point `(r / 64, b / 16384)` — so after the run the whole result array is the product.
-/
import proofs.«144329_j63496796504583_1_alg».proof.Proof.Gen.KernelIdeal.Value
import proofs.«144329_j63496796504583_1_alg».proof.Proof.KernelBlock
import proofs.«144329_j63496796504583_1_alg».proof.Proof.Spec

noncomputable section

open scoped BigOperators

namespace Cert.KernelIdeal.BlockDiag

open Cert.KernelIdeal Cert.KernelIdeal.Gen Cert.BlockDiag Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-! ## The three windows' block indices over the grid -/

/-- At every grid point the block of `W` is the one numbered like the output tile's row block, the tile of `x` sits where
    the output tile sits, and the output tile's block indices stay below 16 and 2. -/
theorem index_facts : ∀ t : Fin cfg0.N,
    win0_0.index t (0 : Fin 3) = win0_2.index t (0 : Fin 2)
    ∧ win0_0.index t (1 : Fin 3) = 0
    ∧ win0_0.index t (2 : Fin 3) = 0
    ∧ win0_1.index t (0 : Fin 2) = win0_2.index t (0 : Fin 2)
    ∧ win0_1.index t (1 : Fin 2) = win0_2.index t (1 : Fin 2)
    ∧ win0_2.index t (0 : Fin 2) ≤ 15
    ∧ win0_2.index t (1 : Fin 2) ≤ 1 :=
  (by decide +kernel : ∀ t : Fin grid0.N, _)

/-- Every one of the 16 × 2 output tiles is some grid point's. -/
theorem index_onto : ∀ (q0 : Fin 16) (q1 : Fin 2), ∃ t : Fin cfg0.N, win0_2.index t = ![q0.val, q1.val] :=
  (by decide +kernel : ∀ (q0 : Fin 16) (q1 : Fin 2), ∃ t : Fin grid0.N, win0_2.index t = ![q0.val, q1.val])

/-! ## One tile -/

/-- A stored tile against the product: if `w` is block `h` of `Wa` and `x` the tile of `Xa` at row block `h`, column block
    `bb`, then the stored value at `j` is the block-diagonal product of `Wa` and `Xa` at the array index `i` with
    `i₀ = 64·h + j₀` and `i₁ = 16384·bb + j₁`. -/
theorem tile_entry (w : FVec Ideal S1x64x64 .f32) (x : FVec Ideal S64x16384 .f32)
    (Wa : FVec Ideal S16x64x64 .f32) (Xa : FVec Ideal S1024x32768 .f32) (h bb : Nat) (hh : h ≤ 15) (hbb : bb ≤ 1)
    (hw : ∀ (p k : Fin 64), w (ix3 0 p k) = Wa (ix3 (⟨h, by omega⟩ : Fin 16) p k))
    (hx : ∀ (k : Fin 64) (q : Fin 16384), x (ix2 k q)
      = Xa (ix2 (⟨h * 64 + k.val, by have := k.isLt; omega⟩ : Fin 1024) (⟨bb * 16384 + q.val, by have := q.isLt; omega⟩ : Fin 32768)))
    (j : S64x16384.Idx) (i : S1024x32768.Idx)
    (hi0 : (i 0).val = h * 64 + (j 0).val) (hi1 : (i 1).val = bb * 16384 + (j 1).val) :
    k0_pay1 (F := Ideal) w x j = blockDiagMul Wa Xa i := by
  obtain ⟨p, q, rfl⟩ : ∃ (p : Fin 64) (q : Fin 16384), j = ix2 p q := ⟨j 0, j 1, eq_ix2 j⟩
  obtain ⟨r, b, rfl⟩ : ∃ (r : Fin 1024) (b : Fin 32768), i = ix2 r b := ⟨i 0, i 1, eq_ix2 i⟩
  have hr : r.val = h * 64 + p.val := hi0
  have hb : b.val = bb * 16384 + q.val := hi1
  have hp : p.val < 64 := p.isLt
  rw [stored_apply, blockDiagMul_ix2]
  unfold entry
  refine Finset.sum_congr rfl fun k _ => ?_
  rw [hw, hx]
  have e1 : (ix3 (⟨h, by omega⟩ : Fin 16) p k : S16x64x64.Idx) = ix3 (blockOf r) (rowIn r) k := by
    funext a; apply Fin.ext
    match a with
    | ⟨0, _⟩ => show h = r.val / 64; omega
    | ⟨1, _⟩ => show p.val = r.val % 64; omega
    | ⟨2, _⟩ => rfl
  have e2 : (ix2 (⟨h * 64 + k.val, by have := k.isLt; omega⟩ : Fin 1024) (⟨bb * 16384 + q.val, by have := q.isLt; omega⟩ : Fin 32768) : S1024x32768.Idx)
      = ix2 (srcRow r k) b := by
    funext a; apply Fin.ext
    match a with
    | ⟨0, _⟩ => show h * 64 + k.val = r.val / 64 * 64 + k.val; omega
    | ⟨1, _⟩ => show bb * 16384 + q.val = b.val; omega
  rw [e1, e2]

/-- WHAT POINT `t` WRITES BACK is tile `t` of the block-diagonal product of the two argument arrays. -/
theorem flushed_eq (c : Dev nD) (t : Fin cfg0.N) :
    (dats m 0 c).flushed 2 t
      = ((cfg0.win 2).blk t).view.read (Elt Ideal) (blockDiagMul (V m c main_arg0) (V m c main_arg1)) := by
  rw [Value.flushed2]
  unfold out0_2
  rw [View.canon_unit_zero zero2]
  simp only [View.ld_unit_zero (S := S1x64x64) zero3, View.ld_unit_zero (S := S64x16384) zero2]
  obtain ⟨e0, e1, e2, e3, e4, e5, e6⟩ := index_facts t
  funext j
  show k0_pay1 (F := Ideal) (iblk m c 0 t) (iblk m c 1 t) j
    = blockDiagMul (V m c main_arg0) (V m c main_arg1) (((cfg0.win 2).blk t).view.emb j)
  refine tile_entry (iblk m c 0 t) (iblk m c 1 t) (V m c main_arg0) (V m c main_arg1)
    (win0_2.index t (0 : Fin 2)) (win0_2.index t (1 : Fin 2)) e5 e6 ?_ ?_ j (((cfg0.win 2).blk t).view.emb j) ?_ ?_
  · intro p k
    show V m c main_arg0 (((cfg0.win 0).blk t).view.emb (ix3 0 p k)) = V m c main_arg0 _
    refine congrArg _ (funext fun a => Fin.ext ?_)
    match a with
    | ⟨0, _⟩ => show win0_0.index t (0 : Fin 3) * 1 + 1 * (0 : Fin 1).val = win0_2.index t (0 : Fin 2); simp [e0]
    | ⟨1, _⟩ => show win0_0.index t (1 : Fin 3) * 64 + 1 * p.val = p.val; omega
    | ⟨2, _⟩ => show win0_0.index t (2 : Fin 3) * 64 + 1 * k.val = k.val; omega
  · intro k q
    show V m c main_arg1 (((cfg0.win 1).blk t).view.emb (ix2 k q)) = V m c main_arg1 _
    refine congrArg _ (funext fun a => Fin.ext ?_)
    match a with
    | ⟨0, _⟩ => show win0_1.index t (0 : Fin 2) * 64 + 1 * k.val = win0_2.index t (0 : Fin 2) * 64 + k.val; omega
    | ⟨1, _⟩ => show win0_1.index t (1 : Fin 2) * 16384 + 1 * q.val = win0_2.index t (1 : Fin 2) * 16384 + q.val; omega
  · show win0_2.index t (0 : Fin 2) * 64 + 1 * (j 0).val = win0_2.index t (0 : Fin 2) * 64 + (j 0).val; omega
  · show win0_2.index t (1 : Fin 2) * 16384 + 1 * (j 1).val = win0_2.index t (1 : Fin 2) * 16384 + (j 1).val; omega

/-! ## The tiles cover the result -/

/-- An index of the result is in point `t`'s tile iff each coordinate is in the tile's range on its axis. -/
theorem mem_tile (t : Fin cfg0.N) (i : S1024x32768.Idx) :
    i ∈ ((cfg0.win 2).blk t).view.set ↔ ∀ a : Fin 2, win0_2.index t a * S64x16384.size a ≤ (i a).val
      ∧ (i a).val < win0_2.index t a * S64x16384.size a + S64x16384.size a := by
  show i ∈ ((View.whole main_v0).slice (win0_2.rect t)).set ↔ _
  rw [View.set_slice_whole, Rect.mem_set_unit]
  exact Iff.rfl

/-- Row `r`, column `b` of the result lies in the tile of the point with block indices `(r / 64, b / 16384)`. -/
theorem covered (i : S1024x32768.Idx) :
    ∃ t : Fin cfg0.N, (cfg0.win 2).flush t = true ∧ i ∈ ((cfg0.win 2).blk t).view.set := by
  have hi0 : (i 0).val < 1024 := (i 0).isLt
  have hi1 : (i 1).val < 32768 := (i 1).isLt
  obtain ⟨t, ht⟩ := index_onto ⟨(i 0).val / 64, by omega⟩ ⟨(i 1).val / 16384, by omega⟩
  have q0 : win0_2.index t (0 : Fin 2) = (i 0).val / 64 := congrFun ht 0
  have q1 : win0_2.index t (1 : Fin 2) = (i 1).val / 16384 := congrFun ht 1
  refine ⟨t, flush0_2 t, ?_⟩
  rw [mem_tile]
  intro a
  match a with
  | ⟨0, _⟩ =>
    show win0_2.index t (0 : Fin 2) * 64 ≤ (i 0).val ∧ (i 0).val < win0_2.index t (0 : Fin 2) * 64 + 64
    omega
  | ⟨1, _⟩ =>
    show win0_2.index t (1 : Fin 2) * 16384 ≤ (i 1).val ∧ (i 1).val < win0_2.index t (1 : Fin 2) * 16384 + 16384
    omega

/-! ## The array after the run, and the run -/

/-- After the run the result array is the block-diagonal product of the argument arrays as launched. -/
theorem result_array (c : Dev nD) :
    (dats m 0 c).arrAt 2 cfg0.N
      = blockDiagMul (m ((c : Thread nD τ).loc main_arg0)) (m ((c : Thread nD τ).loc main_arg1)) :=
  (dats m 0 c).arrAt_eq_of_cover 2 (blockDiagMul (V m c main_arg0) (V m c main_arg1))
    (fun t _ => flushed_eq m c t) covered

/-- Every weakly fair execution of the idealized kernel ends with the product in its result array and its arguments
    unchanged. -/
theorem run : θ_run defs (onTc (τ := τ) (main (F := Ideal))) ⟨m, fun _ => 0, ρ⟩ fun r => ∀ c : Dev nD,
      r.2.mem ((c : Thread nD τ).loc main_v0)
        = blockDiagMul (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_array m c), (h c).2⟩) (Value.run_blocks m ρ)

end Cert.KernelIdeal.BlockDiag

end
-- ==== Proof.lean ====
/-
  A block-diagonal matrix times a matrix, tile by tile, against one batched product.

  `W : [16, 64, 64]` stacks the sixteen diagonal blocks of a 1024 × 1024 block-diagonal matrix and `inp : [1024, 32768]` is
  the right factor. The kernel walks a 16 × 2 grid: at point `(h, bb)` it multiplies block `W[h]` into the 64 × 16384 tile
  of `inp` with rows `64·h …` and columns `16384·bb …` (on the matrix unit, into a zero accumulator, after two changes of
  float format that are the identity on extended reals) and writes the product to the same tile of the result. The
  reference views `inp` as `[16, 64, 32768]`, takes the batched product `∑_j W[h, i, j] · x[h, j, b]`, and views it as
  `[1024, 32768]` again. On the extended reals both are, at row `r` and column `b`,
      ∑_{k < 64} W[r / 64, r % 64, k] · inp[64 · (r / 64) + k, b]
  (`Cert.BlockDiag.blockDiagMul`): the same finite sum, term for term, so the two results agree at every input whatever
  its entries are — the precondition is not needed for the values. The kernel's array is read tile by tile from its frame
  run (Proof/KernelBlock.lean: one stored entry; Proof/KernelSide.lean: a tile, the cover, the array), the reference's
  from its run read one operation at a time (Proof/RefSide.lean). The idealization rewrote nothing, so `preserves` has no
  conjunct.
-/
import proofs.«144329_j63496796504583_1_alg».proof.Defs
import proofs.«144329_j63496796504583_1_alg».proof.Proof.Gen.Kernel
import proofs.«144329_j63496796504583_1_alg».proof.Proof.Gen.Kernel.Skeleton
import proofs.«144329_j63496796504583_1_alg».proof.Proof.Gen.Kernel.Launch
import proofs.«144329_j63496796504583_1_alg».proof.Proof.Gen.Kernel.Points
import proofs.«144329_j63496796504583_1_alg».proof.Proof.Gen.Kernel.Frame
import proofs.«144329_j63496796504583_1_alg».proof.Proof.Gen.KernelIdeal
import proofs.«144329_j63496796504583_1_alg».proof.Proof.Gen.KernelIdeal.Skeleton
import proofs.«144329_j63496796504583_1_alg».proof.Proof.Gen.KernelIdeal.Launch
import proofs.«144329_j63496796504583_1_alg».proof.Proof.Gen.KernelIdeal.Points
import proofs.«144329_j63496796504583_1_alg».proof.Proof.Gen.KernelIdeal.Frame
import proofs.«144329_j63496796504583_1_alg».proof.Proof.Gen.ReferenceIdeal
import proofs.«144329_j63496796504583_1_alg».proof.Proof.Gen.Pre_finite_inputs
import proofs.«144329_j63496796504583_1_alg».proof.Proof.RefSide
import proofs.«144329_j63496796504583_1_alg».proof.Proof.KernelSide
import Idealize.ShloMosaic.Adequacy
import Idealize.ShloMosaic.Init

noncomputable section

namespace Cert.Proof

open Idealize.ShloMosaic Idealize.SL.Sem Cert.Kernel

/-- The kernel as printed runs to the end and leaves its two arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is three host operations; its run, with the result forgotten, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten when the kernel was read on the extended reals. -/
theorem preserves : Cert.preserves_Kernel_KernelIdeal := trivial

/-- Both programs end with the block-diagonal product of their (agreeing) arguments in the result. -/
theorem algebraic : Cert.algebraic_KernelIdeal_ReferenceIdeal := by
  intro m ρ m' ρ' _ hagree
  refine ⟨_, Cert.KernelIdeal.BlockDiag.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.BlockDiag.reference_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
